-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_500000" .f32 0x360637BD#32 ((1 / 500000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x500000x16 : Shape := ⟨3, ![1, 500000, 16]⟩
abbrev S32000 : Shape := ⟨1, ![32000]⟩
abbrev S1x64x16 : Shape := ⟨3, ![1, 64, 16]⟩
abbrev S500000 : Shape := ⟨1, ![500000]⟩
abbrev S_ : Shape := ⟨0, ![]⟩

class Facts : Prop where
  bcast_S_S1x500000x16 : S_.BroadcastsInDim S1x500000x16 (![] : Fin 0 → Fin S1x500000x16.rank)
  reducesTo_S1x500000x16_S_d0_1_2 : S1x500000x16.ReducesTo [0, 1, 2] S_
  h_S_ : 0 < S_.numel
  bcast_S_S32000 : S_.BroadcastsInDim S32000 (![] : Fin 0 → Fin S32000.rank)
  reducesTo_S32000_S_d0 : S32000.ReducesTo [0] S_
  bcast_S_S1x64x16 : S_.BroadcastsInDim S1x64x16 (![] : Fin 0 → Fin S1x64x16.rank)
  reducesTo_S1x64x16_S_d0_1_2 : S1x64x16.ReducesTo [0, 1, 2] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg3 : IVec S500000 32) (main_v13 : IVec S_ 1) (main_v15 : IVec S500000 1) (main_c_5 : IVec S_ 1) : IVec S_ 1 :=
  let main_v16 : IVec S_ 1 := (fun x v => Host.reduce IntOp.andi x v reducesTo_S500000_S_d0 h_S_) main_v15 main_c_5
  let main_v17 : IVec S_ 1 := andi main_v13 main_v16
  let main_c_6 : IVec S_ 32 := constantI S_ 32 500#32
  let main_v18 : IVec S500000 32 := broadcastInDim S500000 ![] bcast_S_S500000 main_c_6
  let main_v19 : IVec S500000 1 := cmpi .slt main_arg3 main_v18
  let main_c_7 : IVec S_ 1 := constantI S_ 1 1#1
  let main_v20 : IVec S_ 1 := (fun x v => Host.reduce IntOp.andi x v reducesTo_S500000_S_d0 h_S_) main_v19 main_c_7
  let main_v21 : IVec S_ 1 := andi main_v17 main_v20
  main_v21

def fn {F : FTy → Type} [FloatOps F] (main_arg0 : FVec F S1x500000x16 .f32) (main_arg1 : FVec F S32000 .f32) (main_arg2 : FVec F S1x64x16 .f32) (main_arg3 : IVec S500000 32) : IVec S_ 1 :=
  let main_v0 : FVec F S1x500000x16 .f32 := Host.absf main_arg0
  let main_cst : FVec F S_ .f32 := constant S_ .f32 0x7F800000#32
  let main_v1 : FVec F S1x500000x16 .f32 := broadcastInDim S1x500000x16 ![] bcast_S_S1x500000x16 main_cst
  let main_v2 : IVec S1x500000x16 1 := cmpf .olt main_v0 main_v1
  let main_c : IVec S_ 1 := constantI S_ 1 1#1
  let main_v3 : IVec S_ 1 := (fun x v => Host.reduce IntOp.andi x v reducesTo_S1x500000x16_S_d0_1_2 h_S_) main_v2 main_c
  let main_v4 : FVec F S32000 .f32 := Host.absf main_arg1
  let main_cst_0 : FVec F S_ .f32 := constant S_ .f32 0x7F800000#32
  let main_v5 : FVec F S32000 .f32 := broadcastInDim S32000 ![] bcast_S_S32000 main_cst_0
  let main_v6 : IVec S32000 1 := cmpf .olt main_v4 main_v5
  let main_c_1 : IVec S_ 1 := constantI S_ 1 1#1
  let main_v7 : IVec S_ 1 := (fun x v => Host.reduce IntOp.andi x v reducesTo_S32000_S_d0 h_S_) main_v6 main_c_1
  let main_v8 : IVec S_ 1 := andi main_v3 main_v7
  let main_v9 : FVec F S1x64x16 .f32 := Host.absf main_arg2
  let main_cst_2 : FVec F S_ .f32 := constant S_ .f32 0x7F800000#32
  let main_v10 : FVec F S1x64x16 .f32 := broadcastInDim S1x64x16 ![] bcast_S_S1x64x16 main_cst_2
  let main_v11 : IVec S1x64x16 1 := cmpf .olt main_v9 main_v10
  let main_c_3 : IVec S_ 1 := constantI S_ 1 1#1
  let main_v12 : IVec S_ 1 := (fun x v => Host.reduce IntOp.andi x v reducesTo_S1x64x16_S_d0_1_2 h_S_) main_v11 main_c_3
  let main_v13 : IVec S_ 1 := andi main_v8 main_v12
  let main_c_4 : IVec S_ 32 := constantI S_ 32 0#32
  let main_v14 : IVec S500000 32 := broadcastInDim S500000 ![] bcast_S_S500000 main_c_4
  let main_v15 : IVec S500000 1 := cmpi .sge main_arg3 main_v14
  let main_c_5 : IVec S_ 1 := constantI S_ 1 1#1
  fn_part1 (F := F) main_arg3 main_v13 main_v15 main_c_5
-- ==== Kernel.lean ====
abbrev S1x500000x16 : Shape := ⟨3, ![1, 500000, 16]⟩
abbrev S32000 : Shape := ⟨1, ![32000]⟩
abbrev S1x64x16 : Shape := ⟨3, ![1, 64, 16]⟩
abbrev S500000 : Shape := ⟨1, ![500000]⟩
abbrev S_ : Shape := ⟨0, ![]⟩
abbrev S1x503808x16 : Shape := ⟨3, ![1, 503808, 16]⟩
abbrev S503808 : Shape := ⟨1, ![503808]⟩
abbrev S1x503808 : Shape := ⟨2, ![1, 503808]⟩
abbrev S64x500 : Shape := ⟨2, ![64, 500]⟩
abbrev S1x4096x16 : Shape := ⟨3, ![1, 4096, 16]⟩
abbrev S1x4096 : Shape := ⟨2, ![1, 4096]⟩
abbrev S500x16 : Shape := ⟨2, ![500, 16]⟩
abbrev S4096x16 : Shape := ⟨2, ![4096, 16]⟩
abbrev S4096 : Shape := ⟨1, ![4096]⟩
abbrev S4096x500 : Shape := ⟨2, ![4096, 500]⟩
abbrev S4096x1 : Shape := ⟨2, ![4096, 1]⟩
abbrev S64x16 : Shape := ⟨2, ![64, 16]⟩

abbrev nBuf : Space → Nat
  | .hbm => 13
  | .vmem => 8
  | .smem => 0
  | _ => 0

abbrev bufTy : (tb : Table) → Fin (tcTables nBuf tb) → BufTy
  | .hbm, ⟨0, _⟩ => ⟨S1x500000x16, .f32⟩
  | .hbm, ⟨1, _⟩ => ⟨S32000, .f32⟩
  | .hbm, ⟨2, _⟩ => ⟨S1x64x16, .f32⟩
  | .hbm, ⟨3, _⟩ => ⟨S500000, .i32⟩
  | .hbm, ⟨4, _⟩ => ⟨S_, .i32⟩
  | .hbm, ⟨5, _⟩ => ⟨S_, .f32⟩
  | .hbm, ⟨6, _⟩ => ⟨S1x503808x16, .f32⟩
  | .hbm, ⟨7, _⟩ => ⟨S_, .i32⟩
  | .hbm, ⟨8, _⟩ => ⟨S_, .i32⟩
  | .hbm, ⟨9, _⟩ => ⟨S503808, .i32⟩
  | .hbm, ⟨10, _⟩ => ⟨S1x503808, .i32⟩
  | .hbm, ⟨11, _⟩ => ⟨S64x500, .f32⟩
  | .hbm, ⟨12, _⟩ => ⟨S1x64x16, .f32⟩
  | .local _ .vmem, ⟨0, _⟩ => ⟨S1x4096x16, .f32⟩
  | .local _ .vmem, ⟨1, _⟩ => ⟨S1x4096x16, .f32⟩
  | .local _ .vmem, ⟨2, _⟩ => ⟨S1x4096, .i32⟩
  | .local _ .vmem, ⟨3, _⟩ => ⟨S1x4096, .i32⟩
  | .local _ .vmem, ⟨4, _⟩ => ⟨S64x500, .f32⟩
  | .local _ .vmem, ⟨5, _⟩ => ⟨S1x64x16, .f32⟩
  | .local _ .vmem, ⟨6, _⟩ => ⟨S1x64x16, .f32⟩
  | .local _ .vmem, ⟨7, _⟩ => ⟨S500x16, .f32⟩
  | _, _ => ⟨S1x500000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![123], ![false]⟩

def k0_cond2 (i : grid0.Coords) : BitVec 1 :=
  let arg0 : BitVec 32 := BitVec.ofNat 32 (i 0).val
  let c122_i32 : BitVec 32 := 122#32
  let v21 : BitVec 1 := Scalar.cmpi .eq arg0 c122_i32
  let v22 : BitVec 32 := Scalar.extui v21
  let c0_i32_9 : BitVec 32 := 0#32
  let v23 : BitVec 1 := Scalar.cmpi .ne v22 c0_i32_9
  v23

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  pads_S1x500000x16_S1x503808x16_000_038080_000 : S1x500000x16.Pads (![0, 0, 0] : Fin 3 → Nat) ![0, 3808, 0] ![0, 0, 0] S1x503808x16
  h_S_ : 0 < S_.numel
  pads_S500000_S503808_038080 : S500000.Pads (![0] : Fin 1 → Nat) ![3808] ![0] S503808
  shapeCasts_S503808_S1x503808 : S503808.ShapeCasts S1x503808
  shapeCasts_S32000_S64x500 : S32000.ShapeCasts S64x500
  inb_S500x16_S500x16_0_0 : ∀ a, (![0, 0] : Fin 2 → Nat) a + S500x16.size a ≤ S500x16.size a
  h_S500x16 : 0 < S500x16.numel
  shapeCasts_S500x16_S500x16 : S500x16.ShapeCasts S500x16
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  bitsLt_bf16_f32 : FTy.bits .bf16 < FTy.bits .f32
  inb_S1x4096_S1x4096_0_0 : ∀ a, (![0, 0] : Fin 2 → Nat) a + S1x4096.size a ≤ S1x4096.size a
  h_S1x4096 : 0 < S1x4096.numel
  shapeCasts_S1x4096_S4096 : S1x4096.ShapeCasts S4096
  iota_S4096x500_d1_w32 : S4096x500.Iotas .tc 32 [1]
  shapeCasts_S4096_S4096x1 : S4096.ShapeCasts S4096x1
  broadcasts_S4096x1_S4096x500 : S4096x1.Broadcasts S4096x500
  natLt_1_32 : 1 < 32
  inb_S64x500_S64x500_0_0 : ∀ a, (![0, 0] : Fin 2 → Nat) a + S64x500.size a ≤ S64x500.size a
  h_S64x500 : 0 < S64x500.numel
  shapeCasts_S64x500_S64x500 : S64x500.ShapeCasts S64x500
  inb_S1x64x16_S1x64x16_0_0_0 : ∀ a, (![0, 0, 0] : Fin 3 → Nat) a + S1x64x16.size a ≤ S1x64x16.size a
  h_S1x64x16 : 0 < S1x64x16.numel
  shapeCasts_S1x64x16_S64x16 : S1x64x16.ShapeCasts S64x16
  shapeCasts_S64x16_S1x64x16 : S64x16.ShapeCasts S1x64x16
  dot_S4096x500_S4096x16_S500x16_0_0_1_1_n_n_wf : DotDims.WF S4096x500 S4096x16 S500x16 [0] [0] [1] [1] [] []
  dot_S64x500_S500x16_S64x16_1_0_0_1_n_n_wf : DotDims.WF S64x500 S500x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x16.size a ≤ S1x503808x16.size a
  hwx0_0 : ∀ i : grid0.Coords, EltTy.bits .f32 = 32 ∨ (Rect.block (s := S1x503808x16) S1x4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x503808.size a
  hwx0_1 : ∀ i : grid0.Coords, EltTy.bits .i32 = 32 ∨ (Rect.block (s := S1x503808) S1x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x500.size a ≤ S64x500.size a
  hwx0_2 : ∀ i : grid0.Coords, EltTy.bits .f32 = 32 ∨ (Rect.block (s := S64x500) S64x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64x16.size a ≤ S1x64x16.size a
  hwx0_3 : ∀ i : grid0.Coords, EltTy.bits .f32 = 32 ∨ (Rect.block (s := S1x64x16) S1x64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64x16.size a ≤ S1x64x16.size a
  hwx0_4 : ∀ i : grid0.Coords, EltTy.bits .f32 = 32 ∨ (Rect.block (s := S1x64x16) S1x64x16.size (cc0_transform_4 i) (hinb0_4 i)).WholeWords (EltTy.packing .f32)

variable [Facts₀]

def dot_S4096x500_S4096x16_S500x16_0_0_1_1_n_n : DotDims S4096x500 S4096x16 S500x16 where
  lhsContracting := [0]
  rhsContracting := [0]
  lhsNonContracting := [1]
  rhsNonContracting := [1]
  lhsBatch := []
  rhsBatch := []
  wf := dot_S4096x500_S4096x16_S500x16_0_0_1_1_n_n_wf
def dot_S64x500_S500x16_S64x16_1_0_0_1_n_n : DotDims S64x500 S500x16 S64x16 where
  lhsContracting := [1]
  rhsContracting := [0]
  lhsNonContracting := [0]
  rhsNonContracting := [1]
  lhsBatch := []
  rhsBatch := []
  wf := dot_S64x500_S500x16_S64x16_1_0_0_1_n_n_wf

abbrev win0_0 : Pipeline.Window sig grid0 :=
  Pipeline.Window.ofSpec (Memref.whole main_v0) S1x4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64x16.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x500000x16 : Shape := ⟨3, ![1, 500000, 16]⟩
abbrev S32000 : Shape := ⟨1, ![32000]⟩
abbrev S1x64x16 : Shape := ⟨3, ![1, 64, 16]⟩
abbrev S500000 : Shape := ⟨1, ![500000]⟩
abbrev S1x64x500 : Shape := ⟨3, ![1, 64, 500]⟩
abbrev S_ : Shape := ⟨0, ![]⟩
abbrev S500000x1 : Shape := ⟨2, ![500000, 1]⟩
abbrev S1x64x500000 : Shape := ⟨3, ![1, 64, 500000]⟩

abbrev nBuf : Space → Nat
  | .hbm => 19
  | .vmem => 0
  | .smem => 0
  | _ => 0

abbrev bufTy : (tb : Table) → Fin (tcTables nBuf tb) → BufTy
  | .hbm, ⟨0, _⟩ => ⟨S1x500000x16, .f32⟩
  | .hbm, ⟨1, _⟩ => ⟨S32000, .f32⟩
  | .hbm, ⟨2, _⟩ => ⟨S1x64x16, .f32⟩
  | .hbm, ⟨3, _⟩ => ⟨S500000, .i32⟩
  | .hbm, ⟨4, _⟩ => ⟨S1x64x500, .f32⟩
  | .hbm, ⟨5, _⟩ => ⟨S_, .i32⟩
  | .hbm, ⟨6, _⟩ => ⟨S500000, .i32⟩
  | .hbm, ⟨7, _⟩ => ⟨S500000, .i1⟩
  | .hbm, ⟨8, _⟩ => ⟨S_, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S500000x1, .i32⟩
  | .hbm, ⟨13, _⟩ => ⟨S1x64x500000, .f32⟩
  | .hbm, ⟨14, _⟩ => ⟨S_, .f32⟩
  | .hbm, ⟨15, _⟩ => ⟨S1x64x500000, .f32⟩
  | .hbm, ⟨16, _⟩ => ⟨S1x64x500000, .f32⟩
  | .hbm, ⟨17, _⟩ => ⟨S1x64x16, .f32⟩
  | .hbm, ⟨18, _⟩ => ⟨S1x64x16, .f32⟩
  | _, _ => ⟨S1x500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  shapeCasts_S32000_S1x64x500 : S32000.ShapeCasts S1x64x500
  bcast_S_S500000 : S_.BroadcastsInDim S500000 (![] : Fin 0 → Fin S500000.rank)
  bcast_S500000_S500000x1_0 : S500000.BroadcastsInDim S500000x1 (![0] : Fin 1 → Fin S500000x1.rank)
  bcast_S_S1x64x500000 : S_.BroadcastsInDim S1x64x500000 (![] : Fin 0 → Fin S1x64x500000.rank)
  gather_S1x64x500_S500000x1_S1x64x500000_01_2_n_n_2_1_1641_wf : GatherDims.WF S1x64x500 S500000x1 S1x64x500000 [0, 1] [2] [] [2] [] 1 ![1, 64, 1]
  dot_S1x64x500000_S1x500000x16_S1x64x16_2_1_1_2_0_0_wf : DotDims.WF S1x64x500000 S1x500000x16 S1x64x16 [2] [1] [1] [2] [0] [0]

variable [Facts₀]

def gather_S1x64x500_S500000x1_S1x64x500000_01_2_n_n_2_1_1641 : GatherDims S1x64x500 S500000x1 S1x64x500000 where
  offsetDims := [0, 1]
  collapsedSliceDims := [2]
  operandBatchingDims := []
  startIndicesBatchingDims := []
  startIndexMap := [2]
  indexVectorDim := 1
  sliceSizes := ![1, 64, 1]
  wf := gather_S1x64x500_S500000x1_S1x64x500000_01_2_n_n_2_1_1641_wf
def dot_S1x64x500000_S1x500000x16_S1x64x16_2_1_1_2_0_0 : DotDims S1x64x500000 S1x500000x16 S1x64x16 where
  lhsContracting := [2]
  rhsContracting := [1]
  lhsNonContracting := [1]
  rhsNonContracting := [2]
  lhsBatch := [0]
  rhsBatch := [0]
  wf := dot_S1x64x500000_S1x500000x16_S1x64x16_2_1_1_2_0_0_wf

class Facts : Prop extends Facts₀ where

variable [Facts]
-- ==== Proof.Pieces.lean ====
/-
  What each control case of the body leaves behind, as values of the blocks it loaded.
  The first point resets the 500 x 16 table and adds the tile's contribution to the zero table; a middle point adds
  the tile's contribution to the table the point before left; the last point does the same and then stores the
  output block  (W · table) · (1/500000) + b  of the table it has just completed.
-/
import proofs.«429767_j44006234915594_1_alg».proof.Proof.Gen.KernelIdeal.Frame
import Idealize.ShloMosaic.Lib.Pipeline.Value
import Idealize.ShloMosaic.Lib.Tactic

noncomputable section

namespace Cert.KernelIdeal.RuleAggK

open Cert.KernelIdeal Cert.KernelIdeal.Gen Idealize.ShloMosaic Idealize.ShloMosaic.TcCoe Idealize.SL.Sem

variable {F : FTy → Type} [FloatOps F] [Named F]

theorem zero2 : (![0, 0] : Fin 2 → Nat) = fun _ => 0 := funext fun a => by fin_cases a <;> rfl
theorem zero3 : (![0, 0, 0] : Fin 3 → Nat) = fun _ => 0 := funext fun a => by fin_cases a <;> rfl

/-- A middle point leaves the table it found plus the tile's contribution. -/
theorem table_B (c : Dev nD) (i : grid0.Coords) (a1 : Memref sig .tc .vmem S1x4096x16 .f32) (h1 : a1.IsWhole) (a2 : Memref sig .tc .vmem S1x4096 .i32) (h2 : a2.IsWhole) (a3 : Memref sig .tc .vmem S64x500 .f32) (h3 : a3.IsWhole) (a4 : Memref sig .tc .vmem S1x64x16 .f32) (h4 : a4.IsWhole) (a5 : Memref sig .tc .vmem S1x64x16 .f32) (h5 : a5.IsWhole) (a6 : Memref sig .tc .vmem S500x16 .f32) (h6 : a6.IsWhole) (hc0 : ¬cond0_0 i) (hc1 : ¬cond0_1 i) (x0 : Vec F S1x4096x16 .f32) (x1 : Vec F S1x4096 .i32) (x2 : Vec F S64x500 .f32) (x3 : Vec F S1x64x16 .f32) (xs0 : Vec F S500x16 .f32) :
    sout0_B_0 c i a1 h1 a2 h2 a3 h3 a4 h4 a5 h5 a6 h6 hc0 hc1 x0 x1 x2 x3 xs0 = k0_pay2 x0 x1 xs0 := by
  unfold sout0_B_0
  rw [View.read_writes_eq_canon _ _ _ (scover0_B_0 c i a1 h1 a2 h2 a3 h3 a4 h4 a5 h5 a6 h6 hc0 hc1 x0 x1 x2 x3 xs0)]
  unfold kernelRun0_B
  dsimp only
  rw [View.canon_unit_zero zero2]
  simp only [View.readAt_eq_ld, h1.read_unread, h2.read_unread, h3.read_unread, h4.read_unread, h6.read_unread, View.ld_unit_zero (S := S1x4096x16) zero3, View.ld_unit_zero (S := S1x4096) zero2, View.ld_unit_zero (S := S64x500) zero2, View.ld_unit_zero (S := S1x64x16) zero3, View.ld_unit_zero (S := S500x16) zero2]

/-- The first point leaves the zero table plus the tile's contribution. -/
theorem table_A (c : Dev nD) (i : grid0.Coords) (a1 : Memref sig .tc .vmem S1x4096x16 .f32) (h1 : a1.IsWhole) (a2 : Memref sig .tc .vmem S1x4096 .i32) (h2 : a2.IsWhole) (a3 : Memref sig .tc .vmem S64x500 .f32) (h3 : a3.IsWhole) (a4 : Memref sig .tc .vmem S1x64x16 .f32) (h4 : a4.IsWhole) (a5 : Memref sig .tc .vmem S1x64x16 .f32) (h5 : a5.IsWhole) (a6 : Memref sig .tc .vmem S500x16 .f32) (h6 : a6.IsWhole) (hc0 : cond0_0 i) (hc1 : ¬cond0_1 i) (x0 : Vec F S1x4096x16 .f32) (x1 : Vec F S1x4096 .i32) (x2 : Vec F S64x500 .f32) (x3 : Vec F S1x64x16 .f32) :
    sout0_A_0 c i a1 h1 a2 h2 a3 h3 a4 h4 a5 h5 a6 h6 hc0 hc1 x0 x1 x2 x3 = k0_pay2 x0 x1 (k0_pay1 (F := F)) := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S500x16) zero2, View.readCov_unit_zero (S := S500x16) _ zero2]
  simp only [View.readAt_eq_ld, h1.read_unread, h2.read_unread, h3.read_unread, h4.read_unread, h6.read_unread, View.ld_unit_zero (S := S1x4096x16) zero3, View.ld_unit_zero (S := S1x4096) zero2, View.ld_unit_zero (S := S64x500) zero2, View.ld_unit_zero (S := S1x64x16) zero3, View.ld_unit_zero (S := S500x16) zero2]

/-- The last point leaves the table it found plus the tile's contribution … -/
theorem table_C (c : Dev nD) (i : grid0.Coords) (a1 : Memref sig .tc .vmem S1x4096x16 .f32) (h1 : a1.IsWhole) (a2 : Memref sig .tc .vmem S1x4096 .i32) (h2 : a2.IsWhole) (a3 : Memref sig .tc .vmem S64x500 .f32) (h3 : a3.IsWhole) (a4 : Memref sig .tc .vmem S1x64x16 .f32) (h4 : a4.IsWhole) (a5 : Memref sig .tc .vmem S1x64x16 .f32) (h5 : a5.IsWhole) (a6 : Memref sig .tc .vmem S500x16 .f32) (h6 : a6.IsWhole) (hc0 : ¬cond0_0 i) (hc1 : cond0_1 i) (x0 : Vec F S1x4096x16 .f32) (x1 : Vec F S1x4096 .i32) (x2 : Vec F S64x500 .f32) (x3 : Vec F S1x64x16 .f32) (xs0 : Vec F S500x16 .f32) :
    sout0_C_0 c i a1 h1 a2 h2 a3 h3 a4 h4 a5 h5 a6 h6 hc0 hc1 x0 x1 x2 x3 xs0 = k0_pay2 x0 x1 xs0 := by
  unfold sout0_C_0
  rw [View.read_writes_eq_canon _ _ _ (scover0_C_0 c i a1 h1 a2 h2 a3 h3 a4 h4 a5 h5 a6 h6 hc0 hc1 x0 x1 x2 x3 xs0)]
  unfold kernelRun0_C
  dsimp only
  sl_unfold_words
  rw [View.canon_unit_zero zero2]
  simp only [View.readAt_eq_ld, h1.read_unread, h2.read_unread, h3.read_unread, h4.read_unread, h6.read_unread, View.ld_unit_zero (S := S1x4096x16) zero3, View.ld_unit_zero (S := S1x4096) zero2, View.ld_unit_zero (S := S64x500) zero2, View.ld_unit_zero (S := S1x64x16) zero3, View.ld_unit_zero (S := S500x16) zero2]

/-- … and stores the output block computed from that completed table. -/
theorem out_C (c : Dev nD) (i : grid0.Coords) (a1 : Memref sig .tc .vmem S1x4096x16 .f32) (h1 : a1.IsWhole) (a2 : Memref sig .tc .vmem S1x4096 .i32) (h2 : a2.IsWhole) (a3 : Memref sig .tc .vmem S64x500 .f32) (h3 : a3.IsWhole) (a4 : Memref sig .tc .vmem S1x64x16 .f32) (h4 : a4.IsWhole) (a5 : Memref sig .tc .vmem S1x64x16 .f32) (h5 : a5.IsWhole) (a6 : Memref sig .tc .vmem S500x16 .f32) (h6 : a6.IsWhole) (hc0 : ¬cond0_0 i) (hc1 : cond0_1 i) (x0 : Vec F S1x4096x16 .f32) (x1 : Vec F S1x4096 .i32) (x2 : Vec F S64x500 .f32) (x3 : Vec F S1x64x16 .f32) (xs0 : Vec F S500x16 .f32) :
    out0_C_4 c i a1 h1 a2 h2 a3 h3 a4 h4 a5 h5 a6 h6 hc0 hc1 x0 x1 x2 x3 xs0 = k0_pay3 x2 (k0_pay2 x0 x1 xs0) x3 := by
  unfold out0_C_4
  rw [View.read_writes_eq_canon _ _ _ (cover0_C_4 c i a1 h1 a2 h2 a3 h3 a4 h4 a5 h5 a6 h6 hc0 hc1 x0 x1 x2 x3 xs0)]
  unfold kernelRun0_C
  dsimp only
  sl_unfold_words
  rw [View.canon_unit_zero zero3]
  simp only [View.readAt_eq_ld, h1.read_unread, h2.read_unread, h3.read_unread, h4.read_unread, h6.read_unread, View.ld_unit_zero (S := S1x4096x16) zero3, View.ld_unit_zero (S := S1x4096) zero2, View.ld_unit_zero (S := S64x500) zero2, View.ld_unit_zero (S := S1x64x16) zero3, View.ld_unit_zero (S := S500x16) zero2, View.readCov_unit_zero (S := S500x16) _ zero2]

end Cert.KernelIdeal.RuleAggK

end
-- ==== Proof.Spec.lean ====
/-
  The two programs as closed forms over plain index types, and their equality.

  Nodes v < 500000 carry a feature row X v (16 reals) and a label word L v; W is the 64 x 500 table of
  per-label weights, B the 64 x 16 bias.

  The kernel streams the nodes in 123 tiles of 4096 rows (the node axis padded to 503808 with zero rows and
  the sentinel label 500).  Per tile it forms the one-hot matrix of the labels and adds  onehotᵀ · X_tile  into a
  500 x 16 table; after the last tile it returns  (W · table) · (1/500000) + B:

      kernelOut o f = (∑ l, W o l * ∑ t < 123, ∑ r < 4096, hot (label (4096 t + r)) l * X (4096 t + r) f) * (1/500000) + B o f.

  The reference looks the weight of each node's label up, divides it by 500000 and contracts over the nodes:

      refOut o f = (∑ v, (W o (label v) / 500000) * X v f) + B o f.

  For finite X, W, B and labels in [0, 500) both are  (1/500000) ∑ v, W o (label v) · X v f + B o f  over the reals:
  exchanging the two finite sums collapses the one-hot factor (a padded row contributes nothing: its features are zero
  and its label matches no column), and the division by 500000 is the product with 1/500000, which moves across the
  finite sum by distributivity — the step that needs every entry to be a real number.
-/
import Idealize.ShloMosaic.PureOps.Ideal

noncomputable section

open scoped BigOperators

namespace RuleAgg

open Idealize.ShloMosaic

/-- Node features on the padded node axis: zero rows beyond the 500000 nodes. -/
def xpad (X : Fin 500000 → Fin 16 → EReal) (n : ℕ) (f : Fin 16) : EReal :=
  if h : n < 500000 then X ⟨n, h⟩ f else 0

/-- Label words on the padded node axis: the sentinel 500 beyond the 500000 nodes. -/
def lpad (L : Fin 500000 → BitVec 32) (n : ℕ) : BitVec 32 :=
  if h : n < 500000 then L ⟨n, h⟩ else 500#32

/-- The one-hot entry of a label word at column `l`. -/
def hot (w : BitVec 32) (l : Fin 500) : EReal := if BitVec.ofNat 32 l.val = w then 1 else 0

/-- The label-aggregated feature table after all 123 tiles. -/
def agg (X : Fin 500000 → Fin 16 → EReal) (L : Fin 500000 → BitVec 32) (l : Fin 500) (f : Fin 16) : EReal :=
  ∑ t ∈ Finset.range 123, ∑ r : Fin 4096, hot (lpad L (4096 * t + r.val)) l * xpad X (4096 * t + r.val) f

/-- What the kernel returns at (o, f). -/
def kernelOut (X : Fin 500000 → Fin 16 → EReal) (W : Fin 64 → Fin 500 → EReal) (B : Fin 64 → Fin 16 → EReal)
    (L : Fin 500000 → BitVec 32) (o : Fin 64) (f : Fin 16) : EReal :=
  (∑ l : Fin 500, W o l * agg X L l f) * ((1 / 500000 : ℝ) : EReal) + B o f

/-- The column a label word selects in the reference's lookup: the word read signed, clamped into [0, 499]. -/
def col (w : BitVec 32) : Fin 500 := ⟨min w.toInt.toNat 499, by omega⟩

/-- What the reference returns at (o, f). -/
def refOut (X : Fin 500000 → Fin 16 → EReal) (W : Fin 64 → Fin 500 → EReal) (B : Fin 64 → Fin 16 → EReal)
    (L : Fin 500000 → BitVec 32) (o : Fin 64) (f : Fin 16) : EReal :=
  (∑ v : Fin 500000, Ideal.div (W o (col (L v))) (Ideal.ofBits .f32 0x48F42400#32) * X v f) + B o f

/-- The constant the reference divides by is the real 500000 (sign 0, exponent 145, fraction 7611392:
    (2^23 + 7611392) * 2^(145 - 127 - 23) = 16000000 / 32). -/
private theorem ofBits_500000 : Ideal.ofBits .f32 0x48F42400#32 = ((500000 : ℝ) : EReal) := by
  simp [Ideal.ofBits, Ideal.ieee, -EReal.coe_mul]; norm_num

/-- A finite sum of real numbers, read in the extended reals, is the real sum. -/
private theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- Summing tile by tile (T tiles of R rows) is summing along the whole axis of R * T rows. -/
private theorem sum_tiles {M : Type*} [AddCommMonoid M] (R : ℕ) (G : ℕ → M) (T : ℕ) :
    ∑ t ∈ Finset.range T, ∑ r : Fin R, G (R * t + r.val) = ∑ n ∈ Finset.range (R * T), G n := by
  induction T with
  | zero => simp
  | succ T ih =>
    rw [Finset.sum_range_succ, ih, Nat.mul_succ, Finset.sum_range_add,
      Fin.sum_univ_eq_sum_range (fun r => G (R * T + r)) R]

/-- A label word in [0, 500) equals the word of column l exactly when l is its (unclamped) value. -/
private theorem word_eq_iff (w : BitVec 32) (h0 : 0 ≤ w.toInt) (h1 : w.toInt < 500) (l : Fin 500) :
    BitVec.ofNat 32 l.val = w ↔ l.val = min w.toInt.toNat 499 := by
  have hw := w.isLt
  have hn : w.toInt = (w.toNat : ℤ) := by
    have h := BitVec.toInt_eq_toNat_cond w
    split at h <;> omega
  have hl := l.isLt
  constructor
  · intro h
    have h2 : w.toNat = l.val := by
      rw [← h, BitVec.toNat_ofNat]; omega
    omega
  · intro h
    apply BitVec.eq_of_toNat_eq
    rw [BitVec.toNat_ofNat]; omega

/-- For a label word in [0, 500) the one-hot row is the indicator of the column the reference looks up. -/
private theorem hot_eq (w : BitVec 32) (h0 : 0 ≤ w.toInt) (h1 : w.toInt < 500) (l : Fin 500) :
    hot w l = if l = col w then 1 else 0 := by
  unfold hot
  refine if_congr ?_ rfl rfl
  rw [word_eq_iff w h0 h1 l, Fin.ext_iff]
  rfl

/-- Contracting a weight row against one-hot-selected values: exchanging the two finite sums leaves, for each
    v, the single column c v. -/
private theorem onehot_contract {α β : Type*} [Fintype α] [Fintype β] [DecidableEq β] (c : α → β) (w : β → ℝ)
    (x : α → ℝ) :
    ∑ l : β, w l * ∑ v : α, (if l = c v then x v else 0) = ∑ v : α, w (c v) * x v := by
  simp_rw [Finset.mul_sum]
  rw [Finset.sum_comm]
  refine Finset.sum_congr rfl fun v _ => ?_
  simp [mul_ite, Finset.sum_ite_eq']

/-- The aggregated table is a sum over the 500000 real nodes: the 123 tiles of 4096 rows are the axis of
    503808 = 500000 + 3808 rows, and each of the last 3808 rows has zero features. -/
private theorem agg_eq (X : Fin 500000 → Fin 16 → EReal) (L : Fin 500000 → BitVec 32) (l : Fin 500) (f : Fin 16) :
    agg X L l f = ∑ v : Fin 500000, hot (L v) l * X v f := by
  unfold agg
  rw [sum_tiles 4096 (fun n => hot (lpad L n) l * xpad X n f) 123,
    show 4096 * 123 = 500000 + 3808 by norm_num, Finset.sum_range_add]
  have hz : ∑ x ∈ Finset.range 3808, hot (lpad L (500000 + x)) l * xpad X (500000 + x) f = 0 := by
    refine Finset.sum_eq_zero fun x _ => ?_
    have hx : ¬ 500000 + x < 500000 := by omega
    rw [xpad, dif_neg hx, mul_zero]
  rw [hz, add_zero, ← Fin.sum_univ_eq_sum_range (fun n => hot (lpad L n) l * xpad X n f) 500000]
  refine Finset.sum_congr rfl fun v _ => ?_
  rw [lpad, xpad, dif_pos v.isLt, dif_pos v.isLt]

/-- For finite features, weights and bias and labels in [0, 500) the two closed forms agree. -/
theorem kernelOut_eq_refOut (X : Fin 500000 → Fin 16 → EReal) (W : Fin 64 → Fin 500 → EReal) (B : Fin 64 → Fin 16 → EReal)
    (L : Fin 500000 → BitVec 32)
    (hX : ∀ v f, ∃ r : ℝ, X v f = (r : EReal)) (hW : ∀ o l, ∃ r : ℝ, W o l = (r : EReal))
    (hB : ∀ o f, ∃ r : ℝ, B o f = (r : EReal)) (hL : ∀ v, 0 ≤ (L v).toInt ∧ (L v).toInt < 500)
    (o : Fin 64) (f : Fin 16) : kernelOut X W B L o f = refOut X W B L o f := by
  choose xr hx using hX
  choose wr hw using hW
  choose br hb using hB
  -- the aggregated table, as a real number
  have hagg : ∀ l, agg X L l f = ((∑ v : Fin 500000, if l = col (L v) then xr v f else 0 : ℝ) : EReal) := by
    intro l
    rw [agg_eq, ← coe_sum]
    refine Finset.sum_congr rfl fun v _ => ?_
    rw [hot_eq _ (hL v).1 (hL v).2, hx]
    split_ifs
    · rw [one_mul]
    · rw [zero_mul, EReal.coe_zero]
  -- the kernel's contraction, as a real number
  have hk : ∑ l : Fin 500, W o l * agg X L l f = ((∑ v : Fin 500000, wr o (col (L v)) * xr v f : ℝ) : EReal) := by
    rw [← onehot_contract (fun v => col (L v)) (wr o) (fun v => xr v f), ← coe_sum]
    refine Finset.sum_congr rfl fun l _ => ?_
    rw [hw, hagg, EReal.coe_mul]
  -- the reference's contraction, as a real number
  have hr : ∑ v : Fin 500000, Ideal.div (W o (col (L v))) (Ideal.ofBits .f32 0x48F42400#32) * X v f
      = ((∑ v : Fin 500000, wr o (col (L v)) * (1 / 500000 : ℝ) * xr v f : ℝ) : EReal) := by
    rw [← coe_sum]
    refine Finset.sum_congr rfl fun v _ => ?_
    rw [ofBits_500000, Ideal.div_coe (by norm_num) _, hw, hx, EReal.coe_mul, EReal.coe_mul]
  -- over the reals the factor 1/500000 moves inside the finite sum
  have hs : (∑ v : Fin 500000, wr o (col (L v)) * xr v f) * (1 / 500000 : ℝ)
      = ∑ v : Fin 500000, wr o (col (L v)) * (1 / 500000 : ℝ) * xr v f := by
    rw [Finset.sum_mul]
    refine Finset.sum_congr rfl fun v _ => ?_
    ring
  unfold kernelOut refOut
  rw [hk, hr, ← EReal.coe_mul, hs]

end RuleAgg

end
-- ==== Proof.PayloadIdx.lean ====
/-
  The body's three stored values read at one entry, at the ideal instance (format changes are the identity, a matmul
  into a zero accumulator is the plain sum of products):
    the reset stores zero;
    the update stores  acc[l, f] + ∑ r < 4096, hot(label r, l) · x[r, f]  (the one-hot matrix transposed times the tile);
    the final step stores  (∑ l < 500, W[o, l] · G[l, f]) · (1/500000) + b[o, f].
-/
import proofs.«429767_j44006234915594_1_alg».proof.Proof.Gen.KernelIdeal.Skeleton
import proofs.«429767_j44006234915594_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.RuleAggK

open Cert.KernelIdeal Cert.KernelIdeal.Gen Idealize.ShloMosaic Idealize.ShloMosaic.TcCoe
open Idealize.ShloMosaic.ValueIdx

/-! ## The two products' operand indices, axis by axis

The update contracts axis 0 of both operands (the one-hot matrix enters transposed); the final step contracts the
left operand's axis 1 with the right operand's axis 0. -/

private theorem lhs_upd_0 (i : S500x16.Idx) (q : dot_S4096x500_S4096x16_S500x16_0_0_1_1_n_n.contr.Idx) :
    (dot_S4096x500_S4096x16_S500x16_0_0_1_1_n_n.lhsIdx i q 0).val = (q ⟨0, by decide⟩).val :=
  dot_S4096x500_S4096x16_S500x16_0_0_1_1_n_n.lhsIdx_val_of_single rfl i q
private theorem lhs_upd_1 (i : S500x16.Idx) (q : dot_S4096x500_S4096x16_S500x16_0_0_1_1_n_n.contr.Idx) :
    (dot_S4096x500_S4096x16_S500x16_0_0_1_1_n_n.lhsIdx i q 1).val = (i 0).val := by
  unfold DotDims.lhsIdx
  rw [dif_neg (show ¬(1 : Fin S4096x500.rank) ∈ dot_S4096x500_S4096x16_S500x16_0_0_1_1_n_n.lhsBatch by decide), dif_pos (show (1 : Fin S4096x500.rank) ∈ dot_S4096x500_S4096x16_S500x16_0_0_1_1_n_n.lhsNonContracting by decide)]
  rfl
private theorem rhs_upd_0 (i : S500x16.Idx) (q : dot_S4096x500_S4096x16_S500x16_0_0_1_1_n_n.contr.Idx) :
    (dot_S4096x500_S4096x16_S500x16_0_0_1_1_n_n.rhsIdx i q 0).val = (q ⟨0, by decide⟩).val :=
  dot_S4096x500_S4096x16_S500x16_0_0_1_1_n_n.rhsIdx_val_of_single rfl i q
private theorem rhs_upd_1 (i : S500x16.Idx) (q : dot_S4096x500_S4096x16_S500x16_0_0_1_1_n_n.contr.Idx) :
    (dot_S4096x500_S4096x16_S500x16_0_0_1_1_n_n.rhsIdx i q 1).val = (i 1).val := by
  unfold DotDims.rhsIdx
  rw [dif_neg (show ¬(1 : Fin S4096x16.rank) ∈ dot_S4096x500_S4096x16_S500x16_0_0_1_1_n_n.rhsBatch by decide), dif_pos (show (1 : Fin S4096x16.rank) ∈ dot_S4096x500_S4096x16_S500x16_0_0_1_1_n_n.rhsNonContracting by decide)]
  rfl

private theorem lhs_fin_0 (i : S64x16.Idx) (q : dot_S64x500_S500x16_S64x16_1_0_0_1_n_n.contr.Idx) :
    (dot_S64x500_S500x16_S64x16_1_0_0_1_n_n.lhsIdx i q 0).val = (i 0).val := by
  unfold DotDims.lhsIdx
  rw [dif_neg (show ¬(0 : Fin S64x500.rank) ∈ dot_S64x500_S500x16_S64x16_1_0_0_1_n_n.lhsBatch by decide), dif_pos (show (0 : Fin S64x500.rank) ∈ dot_S64x500_S500x16_S64x16_1_0_0_1_n_n.lhsNonContracting by decide)]
  rfl
private theorem lhs_fin_1 (i : S64x16.Idx) (q : dot_S64x500_S500x16_S64x16_1_0_0_1_n_n.contr.Idx) :
    (dot_S64x500_S500x16_S64x16_1_0_0_1_n_n.lhsIdx i q 1).val = (q ⟨0, by decide⟩).val :=
  dot_S64x500_S500x16_S64x16_1_0_0_1_n_n.lhsIdx_val_of_single rfl i q
private theorem rhs_fin_0 (i : S64x16.Idx) (q : dot_S64x500_S500x16_S64x16_1_0_0_1_n_n.contr.Idx) :
    (dot_S64x500_S500x16_S64x16_1_0_0_1_n_n.rhsIdx i q 0).val = (q ⟨0, by decide⟩).val :=
  dot_S64x500_S500x16_S64x16_1_0_0_1_n_n.rhsIdx_val_of_single rfl i q
private theorem rhs_fin_1 (i : S64x16.Idx) (q : dot_S64x500_S500x16_S64x16_1_0_0_1_n_n.contr.Idx) :
    (dot_S64x500_S500x16_S64x16_1_0_0_1_n_n.rhsIdx i q 1).val = (i 1).val := by
  unfold DotDims.rhsIdx
  rw [dif_neg (show ¬(1 : Fin S500x16.rank) ∈ dot_S64x500_S500x16_S64x16_1_0_0_1_n_n.rhsBatch by decide), dif_pos (show (1 : Fin S500x16.rank) ∈ dot_S64x500_S500x16_S64x16_1_0_0_1_n_n.rhsNonContracting by decide)]
  rfl

/-- The update's product into a zero accumulator, at (l, f): the sum over the tile's rows r of A[r, l] · B[r, f]. -/
private theorem upd_matmul_apply (A : FVec Ideal S4096x500 .bf16) (Bm : FVec Ideal S4096x16 .bf16) (l : Fin 500) (f : Fin 16) :
    matmul dot_S4096x500_S4096x16_S500x16_0_0_1_1_n_n none A Bm (constant S500x16 .f32 0x00000000#32) (ix2 l f)
      = ∑ r : Fin 4096, A (ix2 r l) * Bm (ix2 r f) := by
  refine (Ideal.matmul_constant_zero_apply dot_S4096x500_S4096x16_S500x16_0_0_1_1_n_n none A Bm (ix2 l f)).trans ?_
  rw [← Equiv.sum_comp (ValueIdx.contrEquiv1 dot_S4096x500_S4096x16_S500x16_0_0_1_1_n_n 4096 rfl rfl).symm]
  refine Finset.sum_congr rfl fun k _ => ?_
  have hk := ValueIdx.contrEquiv1_symm_val dot_S4096x500_S4096x16_S500x16_0_0_1_1_n_n 4096 rfl rfl k
  have el : dot_S4096x500_S4096x16_S500x16_0_0_1_1_n_n.lhsIdx (ix2 l f) ((ValueIdx.contrEquiv1 dot_S4096x500_S4096x16_S500x16_0_0_1_1_n_n 4096 rfl rfl).symm k) = ix2 k l := funext fun a => Fin.ext (by
    match a with
    | ⟨0, _⟩ => exact (lhs_upd_0 _ _).trans hk
    | ⟨1, _⟩ => exact lhs_upd_1 _ _)
  have er : dot_S4096x500_S4096x16_S500x16_0_0_1_1_n_n.rhsIdx (ix2 l f) ((ValueIdx.contrEquiv1 dot_S4096x500_S4096x16_S500x16_0_0_1_1_n_n 4096 rfl rfl).symm k) = ix2 k f := funext fun a => Fin.ext (by
    match a with
    | ⟨0, _⟩ => exact (rhs_upd_0 _ _).trans hk
    | ⟨1, _⟩ => exact rhs_upd_1 _ _)
  rw [el, er]

/-- The final step's product into a zero accumulator, at (o, f): the sum over the labels l of A[o, l] · B[l, f]. -/
private theorem fin_matmul_apply (A : FVec Ideal S64x500 .bf16) (Bm : FVec Ideal S500x16 .bf16) (o : Fin 64) (f : Fin 16) :
    matmul dot_S64x500_S500x16_S64x16_1_0_0_1_n_n none A Bm (constant S64x16 .f32 0x00000000#32) (ix2 o f)
      = ∑ l : Fin 500, A (ix2 o l) * Bm (ix2 l f) := by
  refine (Ideal.matmul_constant_zero_apply dot_S64x500_S500x16_S64x16_1_0_0_1_n_n none A Bm (ix2 o f)).trans ?_
  rw [← Equiv.sum_comp (ValueIdx.contrEquiv1 dot_S64x500_S500x16_S64x16_1_0_0_1_n_n 500 rfl rfl).symm]
  refine Finset.sum_congr rfl fun k _ => ?_
  have hk := ValueIdx.contrEquiv1_symm_val dot_S64x500_S500x16_S64x16_1_0_0_1_n_n 500 rfl rfl k
  have el : dot_S64x500_S500x16_S64x16_1_0_0_1_n_n.lhsIdx (ix2 o f) ((ValueIdx.contrEquiv1 dot_S64x500_S500x16_S64x16_1_0_0_1_n_n 500 rfl rfl).symm k) = ix2 o k := funext fun a => Fin.ext (by
    match a with
    | ⟨0, _⟩ => exact lhs_fin_0 _ _
    | ⟨1, _⟩ => exact (lhs_fin_1 _ _).trans hk)
  have er : dot_S64x500_S500x16_S64x16_1_0_0_1_n_n.rhsIdx (ix2 o f) ((ValueIdx.contrEquiv1 dot_S64x500_S500x16_S64x16_1_0_0_1_n_n 500 rfl rfl).symm k) = ix2 k f := funext fun a => Fin.ext (by
    match a with
    | ⟨0, _⟩ => exact (rhs_fin_0 _ _).trans hk
    | ⟨1, _⟩ => exact rhs_fin_1 _ _)
  rw [el, er]

/-! ## The one-hot matrix at an entry -/

/-- A one-bit comparison result widened to 32 bits and read signed is 1 where the words agree and 0 elsewhere. -/
private theorem eq_word_toReal (a b : BitVec 32) :
    ((((IntOp.cmpi .eq a b).setWidth 32).toInt : ℝ) : EReal) = if a = b then 1 else 0 := by
  by_cases h : a = b
  · subst h
    rw [if_pos rfl]
    have e : ((IntOp.cmpi .eq a a).setWidth 32).toInt = 1 := by
      have : IntOp.cmpi .eq a a = 1#1 := by
        show BitVec.ofBool (a == a) = 1#1
        rw [beq_self_eq_true]; rfl
      rw [this]; decide
    rw [e]; norm_num
  · rw [if_neg h]
    have e : ((IntOp.cmpi .eq a b).setWidth 32).toInt = 0 := by
      have : IntOp.cmpi .eq a b = 0#1 := by
        show BitVec.ofBool (a == b) = 0#1
        rw [beq_eq_false_iff_ne.mpr h]; rfl
      rw [this]; decide
    rw [e]; norm_num

/-- The one-hot matrix at (r, l): 1 where row r's label word is l, 0 elsewhere. -/
private theorem onehot_apply (lb : Vec Ideal S1x4096 .i32) (r : Fin 4096) (l : Fin 500) :
    (truncf .bf16 (sitofp (F := Ideal) .f32 (extui 32 (cmpi .eq (iota .tc S4096x500 32 [1] iota_S4096x500_d1_w32)
        (broadcastTo S4096x500 (shapeCast S4096x1 (shapeCast S4096 lb shapeCasts_S1x4096_S4096) shapeCasts_S4096_S4096x1)
          broadcasts_S4096x1_S4096x500)) natLt_1_32)) bitsLt_bf16_f32 : FVec Ideal S4096x500 .bf16) (ix2 r l)
      = RuleAgg.hot (lb (ix2 (0 : Fin 1) r)) l := by
  have e1 : iota .tc S4096x500 32 [1] iota_S4096x500_d1_w32 (ix2 r l) = BitVec.ofNat 32 l.val :=
    iota_single_apply .tc S4096x500 32 1 iota_S4096x500_d1_w32 (ix2 r l)
  have e2 : broadcastTo S4096x500 (shapeCast S4096x1 (shapeCast S4096 lb shapeCasts_S1x4096_S4096) shapeCasts_S4096_S4096x1)
      broadcasts_S4096x1_S4096x500 (ix2 r l) = lb (ix2 (0 : Fin 1) r) := by
    refine (broadcastTo_apply _ broadcasts_S4096x1_S4096x500 (ix2 r l) (ix2 r (0 : Fin 1)) fun ax => ?_).trans ?_
    · match ax with
      | ⟨0, _⟩ => rfl
      | ⟨1, _⟩ => rfl
    · refine (shapeCast_apply _ shapeCasts_S4096_S4096x1 (ix2 r (0 : Fin 1)) (ix1 r) ?_).trans ?_
      · rw [Shape.rowMajor_val_one, Shape.rowMajor_val_two]
        show r.val = r.val * 1 + 0
        omega
      · exact shapeCast_1a_a_apply lb shapeCasts_S1x4096_S4096 r
  show ((((IntOp.cmpi .eq (iota .tc S4096x500 32 [1] iota_S4096x500_d1_w32 (ix2 r l))
      (broadcastTo S4096x500 (shapeCast S4096x1 (shapeCast S4096 lb shapeCasts_S1x4096_S4096) shapeCasts_S4096_S4096x1)
        broadcasts_S4096x1_S4096x500 (ix2 r l))).setWidth 32).toInt : ℝ) : EReal) = _
  rw [e1, e2]
  exact eq_word_toReal _ _

/-- The reset's value: zero everywhere. -/
theorem pay1_apply (l : Fin 500) (f : Fin 16) : (k0_pay1 (F := Ideal)) (ix2 l f) = 0 := by
  unfold k0_pay1
  refine (congrFun (shapeCast_self _ shapeCasts_S500x16_S500x16) (ix2 l f)).trans ?_
  exact Ideal.ofBits_zero_f32

/-- The update's value at table entry (l, f). -/
theorem pay2_apply (x : Vec Ideal S1x4096x16 .f32) (lb : Vec Ideal S1x4096 .i32) (acc : Vec Ideal S500x16 .f32)
    (l : Fin 500) (f : Fin 16) :
    k0_pay2 (F := Ideal) x lb acc (ix2 l f)
      = acc (ix2 l f) + ∑ r : Fin 4096, RuleAgg.hot (lb (ix2 (0 : Fin 1) r)) l * x (ix3 (0 : Fin 1) r f) := by
  unfold k0_pay2
  refine (congrFun (shapeCast_self _ shapeCasts_S500x16_S500x16) (ix2 l f)).trans ?_
  refine (addf_apply _ _ (ix2 l f)).trans ?_
  refine congrArg₂ (· + ·) rfl ?_
  refine (upd_matmul_apply _ _ l f).trans ?_
  refine Finset.sum_congr rfl fun r _ => ?_
  refine congrArg₂ (· * ·) (onehot_apply lb r l) ?_
  exact shapeCast_1ab_ab_apply x shapeCasts_S1x4096x16_S4096x16 r f

/-- The final step's value at output entry (o, f). -/
theorem pay3_apply (Wb : Vec Ideal S64x500 .f32) (G : Vec Ideal S500x16 .f32) (b : Vec Ideal S1x64x16 .f32)
    (o : Fin 64) (f : Fin 16) :
    k0_pay3 (F := Ideal) Wb G b (ix3 (0 : Fin 1) o f)
      = (∑ l : Fin 500, Wb (ix2 o l) * G (ix2 l f)) * ((1 / 500000 : ℝ) : EReal) + b (ix3 (0 : Fin 1) o f) := by
  unfold k0_pay3
  refine (shapeCast_ab_1ab_apply _ shapeCasts_S64x16_S1x64x16 (0 : Fin 1) o f).trans ?_
  refine (addf_apply _ _ (ix2 o f)).trans ?_
  refine congrArg₂ (· + ·) ?_ (shapeCast_1ab_ab_apply b shapeCasts_S1x64x16_S64x16 o f)
  refine (mulf_apply _ _ (ix2 o f)).trans ?_
  refine congrArg₂ (· * ·) ?_ ?_
  · refine (fin_matmul_apply _ _ o f).trans ?_
    refine Finset.sum_congr rfl fun k _ => ?_
    refine congrArg₂ (· * ·) ?_ rfl
    exact congrFun (shapeCast_self Wb shapeCasts_S64x500_S64x500) (ix2 o k)
  · exact IdealRules.named_const.ideal_named_scalar _ _ _ _ rfl

end Cert.KernelIdeal.RuleAggK

end
-- ==== Proof.Blocks.lean ====
/-
  Names for what the kernel region reads, at the ideal instance: the four argument arrays as functions of plain
  coordinates (node v, feature f, output row o, label column l), and each input window's block at grid point t under
  its literal vector type (tile t of the padded features, tile t of the padded labels, the whole weight table, the
  whole bias).
-/
import proofs.«429767_j44006234915594_1_alg».proof.Proof.Gen.KernelIdeal.Frame
import proofs.«429767_j44006234915594_1_alg».proof.Proof.Spec
import Idealize.ShloMosaic.Lib.ValueIdx

noncomputable section

namespace Cert.KernelIdeal.RuleAggK

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The node features X v f. -/
def Xof (c : Dev nD) : Fin 500000 → Fin 16 → EReal := fun v f => m ((c : Thread nD τ).loc main_arg0) (ix3 (0 : Fin 1) v f)
/-- The weight table W o l: entry 500·o + l of the flat parameter vector. -/
def Wof (c : Dev nD) : Fin 64 → Fin 500 → EReal := fun o l =>
  m ((c : Thread nD τ).loc main_arg1) (ix1 (⟨o.val * 500 + l.val, by have := o.isLt; have := l.isLt; omega⟩ : Fin 32000))
/-- The bias B o f. -/
def Bof (c : Dev nD) : Fin 64 → Fin 16 → EReal := fun o f => m ((c : Thread nD τ).loc main_arg2) (ix3 (0 : Fin 1) o f)
/-- The label words L v. -/
def Lof (c : Dev nD) : Fin 500000 → BitVec 32 := fun v => m ((c : Thread nD τ).loc main_arg3) (ix1 v)

/-- Tile t of the padded node features, as the body loads it. -/
abbrev xblk (c : Dev nD) (t : Fin cfg0.N) : Vec Ideal S1x4096x16 .f32 := iblk m c 0 t
/-- Tile t of the padded label words. -/
abbrev lblk (c : Dev nD) (t : Fin cfg0.N) : Vec Ideal S1x4096 .i32 := iblk m c 1 t
/-- The weight table's block (the whole table at every point). -/
abbrev wblk (c : Dev nD) (t : Fin cfg0.N) : Vec Ideal S64x500 .f32 := iblk m c 2 t
/-- The bias block (the whole bias at every point). -/
abbrev bblk (c : Dev nD) (t : Fin cfg0.N) : Vec Ideal S1x64x16 .f32 := iblk m c 3 t

end Cert.KernelIdeal.RuleAggK

end
-- ==== Proof.HostReads.lean ====
/-
  What each input block holds, entry by entry, in terms of the argument arrays: the host pads the node axis from
  500000 to 503808 (features with zero rows, labels with the sentinel 500), reshapes the labels to one row and the
  flat parameter vector to the 64 x 500 table; window w's block at grid point t starts at row 4096·t of the padded
  axis (features, labels) or is the whole array (weights, bias).

  Two steps for each window. First, a block entry is an array entry: the block at point t sits at offset
  (block index) × (block size) on every axis, and the block index is t on the node axis of the features and the
  labels and 0 everywhere else, so entry r of tile t is entry 4096·t + r of the padded axis (at most
  4096·122 + 4095 = 503807), and the weight and bias blocks are their arrays. Second, the array the region finds is
  the host operations' value of the arguments: a pad with high padding only reads the operand below 500000 and the
  padding value from there on; a reshape keeps the row-major position, so (0, n) of the one-row labels is entry n and
  (o, l) of the table is entry 500·o + l of the flat vector.
-/
import proofs.«429767_j44006234915594_1_alg».proof.Proof.Blocks
import Idealize.ShloMosaic.Lib.Pipeline.Value
import Idealize.ShloMosaic.Lib.StableHlo.Run
import Idealize.ShloMosaic.Lib.KernelVsHost

noncomputable section

namespace Cert.KernelIdeal.RuleAggK

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The grid and the index maps -/

/-- The grid has 123 points. -/
private theorem tlt (t : Fin cfg0.N) : t.val < 123 := lt_of_lt_of_eq t.isLt N_0

/-- The features' block index at point t is (0, t, 0). -/
private theorem idx0 : ∀ t : Fin grid0.N, win0_0.index t 0 = 0 ∧ win0_0.index t 1 = t.val ∧ win0_0.index t 2 = 0 := by
  decide +kernel
/-- The labels' block index at point t is (0, t). -/
private theorem idx1 : ∀ t : Fin grid0.N, win0_1.index t 0 = 0 ∧ win0_1.index t 1 = t.val := by decide +kernel
/-- The weight table's block index is (0, 0) at every point. -/
private theorem idx2 : ∀ t : Fin grid0.N, win0_2.index t 0 = 0 ∧ win0_2.index t 1 = 0 := by decide +kernel
/-- The bias's block index is (0, 0, 0) at every point. -/
private theorem idx3 : ∀ t : Fin grid0.N, win0_3.index t 0 = 0 ∧ win0_3.index t 1 = 0 ∧ win0_3.index t 2 = 0 := by
  decide +kernel

/-! ## A block entry is an array entry: coordinate = block index × block size + coordinate inside the block -/

/-- Entry (0, r, f) of the features' tile t is entry (0, 4096 t + r, f) of the padded features. -/
private theorem xblk_V (c : Dev nD) (t : Fin cfg0.N) (r : Fin 4096) (f : Fin 16) :
    xblk m c t (ix3 (0 : Fin 1) r f)
      = (V m c main_v0 : S1x503808x16.Idx → EReal)
          (ix3 (0 : Fin 1) ⟨4096 * t.val + r.val, by have := tlt t; have := r.isLt; omega⟩ f) := by
  have hi := idx0 t
  unfold xblk iblk
  rw [View.read_apply]
  show V m c main_v0 _ = _
  congr 1
  funext a
  apply Fin.ext
  match a with
  | ⟨0, _⟩ => show win0_0.index t 0 * 1 + 1 * 0 = 0; rw [hi.1]
  | ⟨1, _⟩ => show win0_0.index t 1 * 4096 + 1 * r.val = 4096 * t.val + r.val; rw [hi.2.1]; omega
  | ⟨2, _⟩ => show win0_0.index t 2 * 16 + 1 * f.val = f.val; rw [hi.2.2]; omega

/-- Entry (0, r) of the labels' tile t is entry (0, 4096 t + r) of the padded labels laid as one row. -/
private theorem lblk_V (c : Dev nD) (t : Fin cfg0.N) (r : Fin 4096) :
    lblk m c t (ix2 (0 : Fin 1) r)
      = (V m c main_v2 : S1x503808.Idx → BitVec 32)
          (ix2 (0 : Fin 1) ⟨4096 * t.val + r.val, by have := tlt t; have := r.isLt; omega⟩) := by
  have hi := idx1 t
  unfold lblk iblk
  rw [View.read_apply]
  show V m c main_v2 _ = _
  congr 1
  funext a
  apply Fin.ext
  match a with
  | ⟨0, _⟩ => show win0_1.index t 0 * 1 + 1 * 0 = 0; rw [hi.1]
  | ⟨1, _⟩ => show win0_1.index t 1 * 4096 + 1 * r.val = 4096 * t.val + r.val; rw [hi.2]; omega

/-- The weight block at any point is the 64 x 500 table, entry for entry. -/
private theorem wblk_V (c : Dev nD) (t : Fin cfg0.N) (o : Fin 64) (l : Fin 500) :
    wblk m c t (ix2 o l) = (V m c main_v3 : S64x500.Idx → EReal) (ix2 o l) := by
  have hi := idx2 t
  unfold wblk iblk
  rw [View.read_apply]
  show V m c main_v3 _ = _
  congr 1
  funext a
  apply Fin.ext
  match a with
  | ⟨0, _⟩ => show win0_2.index t 0 * 64 + 1 * o.val = o.val; rw [hi.1]; omega
  | ⟨1, _⟩ => show win0_2.index t 1 * 500 + 1 * l.val = l.val; rw [hi.2]; omega

/-- The bias block at any point is the bias array, entry for entry. -/
private theorem bblk_V (c : Dev nD) (t : Fin cfg0.N) (o : Fin 64) (f : Fin 16) :
    bblk m c t (ix3 (0 : Fin 1) o f) = (V m c main_arg2 : S1x64x16.Idx → EReal) (ix3 (0 : Fin 1) o f) := by
  have hi := idx3 t
  unfold bblk iblk
  rw [View.read_apply]
  show V m c main_arg2 _ = _
  congr 1
  funext a
  apply Fin.ext
  match a with
  | ⟨0, _⟩ => show win0_3.index t 0 * 1 + 1 * 0 = 0; rw [hi.1]
  | ⟨1, _⟩ => show win0_3.index t 1 * 64 + 1 * o.val = o.val; rw [hi.2.1]; omega
  | ⟨2, _⟩ => show win0_3.index t 2 * 16 + 1 * f.val = f.val; rw [hi.2.2]; omega

/-! ## The arrays the region finds, as the host operations' values of the arguments -/

/-- The padded features: the features with 3808 rows of the converted integer zero behind the node axis. -/
private theorem V_v0 (c : Dev nD) :
    (V m c main_v0 : S1x503808x16.Idx → EReal)
      = pad S1x503808x16 ![0, 0, 0] ![0, 3808, 0] ![0, 0, 0] (m ((c : Thread nD τ).loc main_arg0))
          (sitofp (F := Ideal) .f32 (constantI S_ 32 0#32))
          Facts₀.pads_S1x500000x16_S1x503808x16_000_038080_000 Facts₀.h_S_ := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  rfl

/-- The padded labels as one row: the labels with 3808 copies of the word 500 behind, reshaped to 1 x 503808. -/
private theorem V_v2 (c : Dev nD) :
    (V m c main_v2 : S1x503808.Idx → BitVec 32)
      = shapeCast S1x503808
          (pad S503808 ![0] ![3808] ![0] (m ((c : Thread nD τ).loc main_arg3)) (id (constantI S_ 32 500#32))
            Facts₀.pads_S500000_S503808_038080 Facts₀.h_S_)
          Facts₀.shapeCasts_S503808_S1x503808 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  rfl

/-- The weight table: the flat parameter vector reshaped to 64 x 500. -/
private theorem V_v3 (c : Dev nD) :
    (V m c main_v3 : S64x500.Idx → EReal)
      = shapeCast S64x500 (m ((c : Thread nD τ).loc main_arg1)) Facts₀.shapeCasts_S32000_S64x500 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  rfl

/-! ## The blocks in terms of the arguments -/

/-- Row r of tile t of the features is padded row 4096 t + r. -/
theorem xblk_apply (c : Dev nD) (t : Fin cfg0.N) (r : Fin 4096) (f : Fin 16) :
    xblk m c t (ix3 (0 : Fin 1) r f) = RuleAgg.xpad (Xof m c) (4096 * t.val + r.val) f := by
  have ht := tlt t
  have hr := r.isLt
  refine (xblk_V m c t r f).trans ?_
  rw [V_v0]
  unfold RuleAgg.xpad
  by_cases h : 4096 * t.val + r.val < 500000
  · -- a real node: every coordinate lies inside the operand, the pad reads it there
    rw [dif_pos h]
    refine pad_apply_of_inside _ _ _ _ _ _ _ _ (ix3 (0 : Fin 1) (⟨4096 * t.val + r.val, h⟩ : Fin 500000) f) (fun a => ?_)
    match a with
    | ⟨0, _⟩ => rfl
    | ⟨1, _⟩ => show 4096 * t.val + r.val = 0 + (4096 * t.val + r.val) * (0 + 1); omega
    | ⟨2, _⟩ => show f.val = 0 + f.val * (0 + 1); omega
  · -- past the last node: the node coordinate is outside, the entry is the padding value, the integer 0 as a real
    rw [dif_neg h]
    refine (pad_apply_of_not_inside _ _ _ _ _ _ _ _ (⟨1, by decide⟩ : Fin 3) ?_).trans ?_
    · show ¬(0 ≤ 4096 * t.val + r.val ∧ (4096 * t.val + r.val - 0) % (0 + 1) = 0
        ∧ (4096 * t.val + r.val - 0) / (0 + 1) < 500000)
      omega
    · exact sitofp_zero (φ := .f32)

/-- Entry r of tile t of the labels is padded label 4096 t + r. -/
theorem lblk_apply (c : Dev nD) (t : Fin cfg0.N) (r : Fin 4096) :
    lblk m c t (ix2 (0 : Fin 1) r) = RuleAgg.lpad (Lof m c) (4096 * t.val + r.val) := by
  have ht := tlt t
  have hr := r.isLt
  refine (lblk_V m c t r).trans ?_
  rw [V_v2]
  -- position (0, n) of the one row is position n of the vector
  refine (shapeCast_apply _ _ _ (ix1 (⟨4096 * t.val + r.val, by omega⟩ : Fin 503808))
    (by rw [Shape.rowMajor_val_one, Shape.rowMajor_val_two]
        show 4096 * t.val + r.val = 0 * 503808 + (4096 * t.val + r.val)
        omega)).trans ?_
  unfold RuleAgg.lpad
  by_cases h : 4096 * t.val + r.val < 500000
  · rw [dif_pos h]
    refine pad_apply_of_inside _ _ _ _ _ _ _ _ (ix1 (⟨4096 * t.val + r.val, h⟩ : Fin 500000)) (fun a => ?_)
    match a with
    | ⟨0, _⟩ => show 4096 * t.val + r.val = 0 + (4096 * t.val + r.val) * (0 + 1); omega
  · -- past the last node the entry is the padding word, 500
    rw [dif_neg h]
    refine (pad_apply_of_not_inside _ _ _ _ _ _ _ _ (⟨0, by decide⟩ : Fin 1) ?_).trans rfl
    show ¬(0 ≤ 4096 * t.val + r.val ∧ (4096 * t.val + r.val - 0) % (0 + 1) = 0
      ∧ (4096 * t.val + r.val - 0) / (0 + 1) < 500000)
    omega

/-- The weight block is the table. -/
theorem wblk_apply (c : Dev nD) (t : Fin cfg0.N) (o : Fin 64) (l : Fin 500) :
    wblk m c t (ix2 o l) = Wof m c o l := by
  have ho := o.isLt
  have hl := l.isLt
  refine (wblk_V m c t o l).trans ?_
  rw [V_v3]
  -- position (o, l) of the table is position 500 o + l of the flat vector
  exact shapeCast_apply _ _ _ (ix1 (⟨o.val * 500 + l.val, by omega⟩ : Fin 32000))
    (by rw [Shape.rowMajor_val_one, Shape.rowMajor_val_two]; rfl)

/-- The bias block is the bias. -/
theorem bblk_apply (c : Dev nD) (t : Fin cfg0.N) (o : Fin 64) (f : Fin 16) :
    bblk m c t (ix3 (0 : Fin 1) o f) = Bof m c o f := by
  refine (bblk_V m c t o f).trans ?_
  -- no host operation writes the bias: the region finds it as launched
  rw [V_main_arg2]
  rfl

end Cert.KernelIdeal.RuleAggK

end
-- ==== Proof.Accum.lean ====
/-
  The 500 x 16 table the kernel carries across the grid: after grid point n it holds, at (l, f), the sum over the
  tiles t ≤ n of  ∑ r < 4096, hot(label (4096 t + r), l) · X(4096 t + r, f)  — by induction on the point: the first
  point starts from the zero table, every later point adds its tile to what the point before left.
-/
import proofs.«429767_j44006234915594_1_alg».proof.Proof.Pieces
import proofs.«429767_j44006234915594_1_alg».proof.Proof.PayloadIdx
import proofs.«429767_j44006234915594_1_alg».proof.Proof.HostReads

noncomputable section

open scoped BigOperators

namespace Cert.KernelIdeal.RuleAggK

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Tile t's contribution to table entry (l, f). -/
def tile (X : Fin 500000 → Fin 16 → EReal) (L : Fin 500000 → BitVec 32) (t : ℕ) (l : Fin 500) (f : Fin 16) : EReal :=
  ∑ r : Fin 4096, RuleAgg.hot (RuleAgg.lpad L (4096 * t + r.val)) l * RuleAgg.xpad X (4096 * t + r.val) f

theorem agg_eq_sum_tile (X : Fin 500000 → Fin 16 → EReal) (L : Fin 500000 → BitVec 32) (l : Fin 500) (f : Fin 16) :
    RuleAgg.agg X L l f = ∑ t ∈ Finset.range 123, tile X L t l f := rfl

/-- The update at point t adds tile t's contribution to the table it is given. -/
theorem update_apply (c : Dev nD) (t : Fin cfg0.N) (acc : Vec Ideal S500x16 .f32) (l : Fin 500) (f : Fin 16) :
    k0_pay2 (F := Ideal) (xblk m c t) (lblk m c t) acc (ix2 l f) = acc (ix2 l f) + tile (Xof m c) (Lof m c) t.val l f := by
  refine (pay2_apply (xblk m c t) (lblk m c t) acc l f).trans ?_
  unfold tile
  refine congrArg (acc (ix2 l f) + ·) (Finset.sum_congr rfl fun r _ => ?_)
  rw [lblk_apply, xblk_apply]

/-- The first point leaves the update of the zero table. -/
theorem table_first (c : Dev nD) (h : 0 < cfg0.N) :
    (outsAt0 m c 0 h).2 = k0_pay2 (F := Ideal) (xblk m c ⟨0, h⟩) (lblk m c ⟨0, h⟩) (k0_pay1 (F := Ideal)) := by
  have e : outsAt0 m c 0 h = _ := outsAt0_A m c ⟨0, h⟩ (Nat.zero_mod _) (by show ¬(0 % 123 = 122); decide)
  rw [e]
  dsimp only
  exact table_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr (Nat.zero_mod _)) (fun hh => absurd ((hcond0_1 ⟨0, h⟩).mp hh) (by show ¬(0 % 123 = 122); decide))
    (iblk m c 0 ⟨0, h⟩) (iblk m c 1 ⟨0, h⟩) (iblk m c 2 ⟨0, h⟩) (iblk m c 3 ⟨0, h⟩)

/-- Every later point leaves the update of what the point before left. -/
theorem table_next (c : Dev nD) (t : Fin cfg0.N) (h0 : ¬t.val % 123 = 0) :
    (outsAt0 m c t.val t.isLt).2
      = k0_pay2 (F := Ideal) (xblk m c t) (lblk m c t) (outsAt0 m c (t.val - 1) (Nat.lt_of_le_of_lt (Nat.sub_le _ _) t.isLt)).2 := by
  by_cases h1 : t.val % 123 = 122
  · rw [outsAt0_C m c t h0 h1]
    dsimp only
    exact table_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact table_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
      (iblk m c 0 t) (iblk m c 1 t) (iblk m c 2 t) (iblk m c 3 t) (outsAt0 m c (t.val - 1) (Nat.lt_of_le_of_lt (Nat.sub_le _ _) t.isLt)).2

/-- The table after point n, entry by entry: the tiles 0 … n summed. -/
theorem table_eq (c : Dev nD) : ∀ (n : ℕ) (h : n < cfg0.N) (l : Fin 500) (f : Fin 16),
    (outsAt0 m c n h).2 (ix2 l f) = ∑ t ∈ Finset.range (n + 1), tile (Xof m c) (Lof m c) t l f
  | 0, h, l, f => by
    rw [table_first m c h, update_apply, pay1_apply, zero_add, Finset.sum_range_one]
  | n + 1, h, l, f => by
    have hN : n + 1 < 123 := lt_of_lt_of_eq h (show cfg0.N = 123 from N_0)
    have h0 : ¬(⟨n + 1, h⟩ : Fin cfg0.N).val % 123 = 0 := by dsimp only; omega
    have e := table_next m c ⟨n + 1, h⟩ h0
    rw [e, update_apply, Finset.sum_range_succ]
    exact congrArg (· + tile (Xof m c) (Lof m c) (n + 1) l f) (table_eq c n (Nat.lt_of_succ_lt h) l f)

end Cert.KernelIdeal.RuleAggK

end
-- ==== Proof.KernelValue.lean ====
/-
  The kernel's result array.  Only the last grid point stores the output block, from the table completed by that
  point's own update: entry (o, f) is  (∑ l, W o l · agg l f) · (1/500000) + B o f  with agg the sum of all 123 tile
  contributions — `RuleAgg.kernelOut`.  The output window has one block, the whole 1 x 64 x 16 array, written back
  once after the last point; so the array ends holding exactly that block.
-/
import proofs.«429767_j44006234915594_1_alg».proof.Proof.Accum
import proofs.«429767_j44006234915594_1_alg».proof.Proof.Gen.KernelIdeal.Value

noncomputable section

open scoped BigOperators

namespace Cert.KernelIdeal.RuleAggK

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result: the closed form at every entry (o, f) of the 1 x 64 x 16 array. -/
def result (c : Dev nD) : Buf (Elt Ideal) ((c : Thread nD τ).loc main_v4) :=
  fun i => RuleAgg.kernelOut (Xof m c) (Wof m c) (Bof m c) (Lof m c) ⟨(i 1).val, (i 1).isLt⟩ ⟨(i 2).val, (i 2).isLt⟩

theorem lastPoint : (122 : ℕ) < cfg0.N := by rw [show cfg0.N = 123 from N_0]; decide

/-- The last grid point. -/
abbrev tLast : Fin cfg0.N := ⟨122, lastPoint⟩

/-- The table the last point completes is the full aggregate. -/
theorem table_last (c : Dev nD) (t : Fin cfg0.N) (h122 : t.val = 122) (h0 : ¬t.val % 123 = 0) (l : Fin 500) (f : Fin 16) :
    k0_pay2 (F := Ideal) (xblk m c t) (lblk m c t) (outsAt0 m c (t.val - 1) (Nat.lt_of_le_of_lt (Nat.sub_le _ _) t.isLt)).2 (ix2 l f)
      = RuleAgg.agg (Xof m c) (Lof m c) l f :=
  (congrFun (table_next m c t h0).symm (ix2 l f)).trans
    ((table_eq m c t.val t.isLt l f).trans (by rw [h122]; rfl))

/-- What the last point stores into the output block is the result. -/
theorem out_last (c : Dev nD) (t : Fin cfg0.N) (h122 : t.val = 122) : (outsAt0 m c t.val t.isLt).1 = result m c := by
  have h0 : ¬t.val % 123 = 0 := by omega
  have h1 : t.val % 123 = 122 := by omega
  funext i
  obtain ⟨a, o, f, rfl⟩ : ∃ (a : Fin 1) (o : Fin 64) (f : Fin 16), i = ix3 a o f := ⟨i 0, i 1, i 2, eq_ix3 i⟩
  obtain rfl : a = 0 := Subsingleton.elim _ _
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) (outsAt0 m c (t.val - 1) (Nat.lt_of_le_of_lt (Nat.sub_le _ _) t.isLt)).2]
  refine (pay3_apply (wblk m c t) _ (bblk m c t) o f).trans ?_
  show _ = RuleAgg.kernelOut (Xof m c) (Wof m c) (Bof m c) (Lof m c) o f
  unfold RuleAgg.kernelOut
  rw [bblk_apply]
  refine congrArg (fun s => s * ((1 / 500000 : ℝ) : EReal) + Bof m c o f) (Finset.sum_congr rfl fun l _ => ?_)
  rw [wblk_apply]
  exact congrArg (Wof m c o l * ·) (table_last m c t h122 h0 l f)

/-- The one write-back writes the result: block (0, 0, 0) of the array, read through zero offsets, is the array. -/
theorem flushed_eq (c : Dev nD) (t : Fin cfg0.N) (hf : (cfg0.win 4).flush t = true) :
    (dats m 0 c).flushed 4 t = ((cfg0.win 4).blk t).view.read (Elt Ideal) (result m c) := by
  have hN : t.val < 123 := lt_of_lt_of_eq t.isLt (show cfg0.N = 123 from N_0)
  have h122 : t.val = 122 := by have := (flush0_4 t).mp hf; omega
  rw [Cert.KernelIdeal.Value.flushed4, out_last m c t h122]
  have hz' : (fun a => win0_4.index t a * main_v4.ty.shape.size a) = fun _ => 0 := funext fun a => by fin_cases a <;> rfl
  exact (Memref.read_access_unit_zero (Elt Ideal) main_v4 hz' (fun a => by rw [congrFun hz' a]; simp) (result m c)).symm

/-- So the result array ends holding the result: the last point's block covers it. -/
theorem final_out (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v4).slice (win0_4.rect tLast)).set
      rw [View.set_slice_whole, Rect.mem_set_unit]
      intro a
      have h0 : (i 0 : Nat) < 1 := (i 0).isLt
      have h1 : (i 1 : Nat) < 64 := (i 1).isLt
      have h2 : (i 2 : Nat) < 16 := (i 2).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 64 from by decide +kernel]; omega
      | ⟨2, _⟩ => show win0_4.index tLast 2 * win0_4.size 2 ≤ (i 2 : Nat) ∧ (i 2 : Nat) < win0_4.index tLast 2 * win0_4.size 2 + win0_4.xsize (grid0.coords tLast) 2
                  rw [show win0_4.index tLast 2 * win0_4.size 2 = 0 from by decide +kernel, show win0_4.xsize (grid0.coords tLast) 2 = 16 from by decide +kernel]; omega⟩

/-- The run, read: the result array at the closed form, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_out m c), (h c).2⟩)
    (Cert.KernelIdeal.Value.run_blocks m ρ)

end Cert.KernelIdeal.RuleAggK

end
-- ==== Proof.RefValue.lean ====
/-
  The reference's result read at one entry: with labels in [0, 500) the negative-index wrap is the identity, the lookup
  reads column `col (label v)` of the 64 x 500 table (entry 500·o + column of the flat vector), each looked-up weight
  is divided by 500000, and the contraction over the nodes plus the bias is `RuleAgg.refOut`.
-/
import proofs.«429767_j44006234915594_1_alg».proof.Proof.Gen.ReferenceIdeal.Read
import proofs.«429767_j44006234915594_1_alg».proof.Proof.Spec
import Idealize.ShloMosaic.Lib.ValueIdx

noncomputable section

namespace Cert.ReferenceIdeal.RuleAggRef

open Cert.ReferenceIdeal Cert.ReferenceIdeal.Gen Idealize.ShloMosaic Idealize.ShloMosaic.TcCoe
open Idealize.ShloMosaic.ValueIdx

/-- The reference's lookup record: operand [1, 64, 500], start indices [500000, 1], result [1, 64, 500000]. -/
private abbrev gd := gather_S1x64x500_S500000x1_S1x64x500000_01_2_n_n_2_1_1641

/-- The lookup read at (0, o, v): on axes 0 and 1 the slice starts at 0 and the offset coordinate is the result's own;
    on the collapsed axis 2 the start is the start index of node v, read signed and clamped into [0, 499], and the
    offset is 0. -/
private theorem gather_apply {α : Type} {w : Nat} (x : S1x64x500.Idx → α) (idx : IVec S500000x1 w) (o : Fin 64) (v : Fin 500000) :
    Host.gather gd x idx (ix3 (0 : Fin 1) o v)
      = x (ix3 (0 : Fin 1) o (⟨min (idx (ix2 v (0 : Fin 1))).toInt.toNat 499, by omega⟩ : Fin 500)) := by
  unfold Host.gather
  congr 1
  funext a
  refine Fin.ext ?_
  show gd.start (ix3 (0 : Fin 1) o v) idx a + gd.batchCoord (ix3 (0 : Fin 1) o v) a + gd.offCoord (ix3 (0 : Fin 1) o v) a = _
  rw [GatherDims.batchCoord_eq_zero _ _ _ List.not_mem_nil, Nat.add_zero]
  match a with
  | ⟨0, _⟩ =>
    have hs : gd.start (ix3 (0 : Fin 1) o v) idx (0 : Fin 3) = 0 := by
      unfold GatherDims.start
      rw [dif_neg (show ¬ (0 : Fin 3) ∈ gd.startIndexMap by decide)]
    have ho : gd.offCoord (ix3 (0 : Fin 1) o v) (0 : Fin 3) = 0 := by
      unfold GatherDims.offCoord
      rw [dif_pos (show (0 : Fin 3) ∈ gd.sKept by decide)]
      rfl
    show gd.start (ix3 (0 : Fin 1) o v) idx (0 : Fin 3) + gd.offCoord (ix3 (0 : Fin 1) o v) (0 : Fin 3) = 0
    rw [hs, ho]
  | ⟨1, _⟩ =>
    have hs : gd.start (ix3 (0 : Fin 1) o v) idx (1 : Fin 3) = 0 := by
      unfold GatherDims.start
      rw [dif_neg (show ¬ (1 : Fin 3) ∈ gd.startIndexMap by decide)]
    have ho : gd.offCoord (ix3 (0 : Fin 1) o v) (1 : Fin 3) = o.val := by
      unfold GatherDims.offCoord
      rw [dif_pos (show (1 : Fin 3) ∈ gd.sKept by decide)]
      rfl
    show gd.start (ix3 (0 : Fin 1) o v) idx (1 : Fin 3) + gd.offCoord (ix3 (0 : Fin 1) o v) (1 : Fin 3) = o.val
    rw [hs, ho, Nat.zero_add]
  | ⟨2, _⟩ =>
    have ho : gd.offCoord (ix3 (0 : Fin 1) o v) (2 : Fin 3) = 0 :=
      GatherDims.offCoord_eq_zero _ _ _ (fun h => ((GatherDims.mem_sKept _ _).mp h).1 (List.mem_singleton.mpr rfl))
    have hm : (2 : Fin 3) ∈ gd.startIndexMap := List.mem_singleton.mpr rfl
    have hsi : gd.siIdx (ix3 (0 : Fin 1) o v) ⟨List.idxOf (2 : Fin 3) gd.startIndexMap, List.idxOf_lt_length_iff.2 hm⟩
        = ix2 v (0 : Fin 1) := by
      funext b; refine Fin.ext ?_
      match b with
      | ⟨0, _⟩ => rfl
      | ⟨1, _⟩ => rfl
    have hs : gd.start (ix3 (0 : Fin 1) o v) idx (2 : Fin 3) = min (idx (ix2 v (0 : Fin 1))).toInt.toNat 499 := by
      unfold GatherDims.start
      rw [dif_pos hm, hsi]
      rfl
    show gd.start (ix3 (0 : Fin 1) o v) idx (2 : Fin 3) + gd.offCoord (ix3 (0 : Fin 1) o v) (2 : Fin 3) = min (idx (ix2 v (0 : Fin 1))).toInt.toNat 499
    rw [hs, ho, Nat.add_zero]

/-- A word that is not negative read signed is not below zero in the signed order. -/
private theorem cmpi_slt_zero (w : BitVec 32) (h : 0 ≤ w.toInt) : IntOp.cmpi .slt w 0#32 = 0#1 := by
  have e : w.slt 0#32 = false := by
    rw [Bool.eq_false_iff]
    intro hc
    have h1 := BitVec.slt_iff_toInt_lt.mp hc
    have h0 : (0#32 : BitVec 32).toInt = 0 := by decide
    omega
  show BitVec.ofBool (w.slt 0#32) = 0#1
  rw [e]; rfl

/-- With a label that is not negative, the wrapped start index of node v is the label itself. -/
private theorem label_apply (L : IVec S500000 32) (v : Fin 500000) (h : 0 ≤ (L (ix1 v)).toInt) :
    Read.val_main_v6 (F := Ideal) L (ix2 v (0 : Fin 1)) = L (ix1 v) := by
  have ei : Read.idx_main_v6 (ix2 v (0 : Fin 1)) = ix1 v := by
    funext a; match a with | ⟨0, _⟩ => rfl
  rw [Read.val_main_v6_apply, ei, Read.val_main_v5_apply, Read.val_main_v2_apply, Read.val_main_v1_apply,
    Read.val_main_c_apply, cmpi_slt_zero _ h, ValueIdx.select_zero]

/-- The looked-up weight at (0, o, v): entry 500·o + column of the flat table, the column being the label of node v
    clamped into [0, 499]. -/
private theorem lookup_apply (W : FVec Ideal S32000 .f32) (L : IVec S500000 32) (o : Fin 64) (v : Fin 500000)
    (h : 0 ≤ (L (ix1 v)).toInt) :
    Read.val_main_v7 (F := Ideal) W L (ix3 (0 : Fin 1) o v)
      = W (ix1 (⟨o.val * 500 + (RuleAgg.col (L (ix1 v))).val,
          by have := o.isLt; have := (RuleAgg.col (L (ix1 v))).isLt; omega⟩ : Fin 32000)) := by
  unfold Read.val_main_v7
  refine (gather_apply _ _ o v).trans ?_
  refine (Read.val_main_v0_apply (F := Ideal) W _).trans ?_
  refine congrArg W ?_
  funext a
  match a with
  | ⟨0, _⟩ =>
    refine Fin.ext ?_
    show ((0 : Fin 1).val * 64 + o.val) * 500 + min (Read.val_main_v6 (F := Ideal) L (ix2 v (0 : Fin 1))).toInt.toNat 499
      = o.val * 500 + min (L (ix1 v)).toInt.toNat 499
    rw [label_apply L v h]
    show (0 * 64 + o.val) * 500 + _ = _
    omega

/-- The reference's result at (0, o, f) is the closed form over the argument arrays read by plain coordinates. -/
theorem ref_apply (X : FVec Ideal S1x500000x16 .f32) (W : FVec Ideal S32000 .f32) (B : FVec Ideal S1x64x16 .f32)
    (L : IVec S500000 32) (hL : ∀ i, 0 ≤ (L i).toInt ∧ (L i).toInt < 500) (o : Fin 64) (f : Fin 16) :
    Cert.ReferenceIdeal.Read.val_main_v11 (F := Ideal) X W B L (ix3 (0 : Fin 1) o f)
      = RuleAgg.refOut (fun v f => X (ix3 (0 : Fin 1) v f))
          (fun o l => W (ix1 (⟨o.val * 500 + l.val, by have := o.isLt; have := l.isLt; omega⟩ : Fin 32000)))
          (fun o f => B (ix3 (0 : Fin 1) o f)) (fun v => L (ix1 v)) o f := by
  rw [Read.val_main_v11_apply, Read.val_main_v10_apply, Ideal.addf_def]
  unfold RuleAgg.refOut
  beta_reduce
  refine congrArg (fun s => s + B (ix3 (0 : Fin 1) o f)) ?_
  refine Finset.sum_congr rfl fun k _ => ?_
  have el : Read.lidx_main_v10 (ix3 (0 : Fin 1) o f) k = ix3 (0 : Fin 1) o k := by
    funext a; match a with | ⟨0, _⟩ => rfl | ⟨1, _⟩ => rfl | ⟨2, _⟩ => rfl
  have er : Read.ridx_main_v10 (ix3 (0 : Fin 1) o f) k = ix3 (0 : Fin 1) k f := by
    funext a; match a with | ⟨0, _⟩ => rfl | ⟨1, _⟩ => rfl | ⟨2, _⟩ => rfl
  rw [el, er, Read.val_main_v9_apply, Ideal.hostDivf_def, Read.val_main_v8_apply, Read.val_main_cst_apply,
    lookup_apply W L o k (hL _).1]
  rfl

end Cert.ReferenceIdeal.RuleAggRef

end
-- ==== Proof.PreFacts.lean ====
/-
  What the precondition says, entry by entry: every feature, weight and bias entry is a real number (its absolute
  value is below +∞), and every label word, read signed, lies in [0, 500).

  The precondition is a conjunction of five one-bit words, each the "and" over a whole array of an elementwise test,
  and it is stated to be 1. A conjunction of one-bit words is 1 exactly when each is; an "and" over an array that is 1
  met a 1 at every index. So at every index the elementwise test holds: for a float entry x the test is
  max x (-x) < +∞ on the extended reals, which rules out x = +∞ and x = -∞ and leaves x real; for a label word w the
  two tests are 0 ≤ w and w < 500, both read signed.
-/
import proofs.«429767_j44006234915594_1_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.Pre_finite_inputs.RuleAggPre

open Cert.Pre_finite_inputs Idealize.ShloMosaic
open Idealize.ShloMosaic.ValueIdx

variable [Cert.Pre_finite_inputs.Facts]

/-- The pattern 0x7F800000 (sign 0, exponent all ones, mantissa 0) denotes +∞. -/
private theorem inf_bits : Ideal.ofBits .f32 0x7F800000#32 = (⊤ : EReal) := by simp [Ideal.ofBits, Ideal.ieee]

/-- An extended real whose absolute value max x (-x) is strictly below +∞ is a real: at x = +∞ the maximum is +∞, at
    x = -∞ it is -(-∞) = +∞, and neither is below +∞. -/
private theorem real_of_abs_lt (x : EReal)
    (hx : Ideal.cmp .olt (max x (-x)) (Ideal.ofBits .f32 0x7F800000#32) = 1#1) : ∃ r : ℝ, x = (r : EReal) := by
  rw [inf_bits] at hx
  unfold Ideal.cmp at hx
  rw [StableHlo.Predicate.ofBool_eq_one_iff, decide_eq_true_eq] at hx
  induction x using EReal.rec with
  | bot => simp at hx
  | coe r => exact ⟨r, rfl⟩
  | top => simp at hx

/-- The precondition, opened. -/
theorem pre_facts (X : FVec Ideal S1x500000x16 .f32) (W : FVec Ideal S32000 .f32) (B : FVec Ideal S1x64x16 .f32)
    (L : IVec S500000 32) (h : Cert.Pre_finite_inputs.fn (F := Ideal) X W B L = fun _ => 1#1) :
    (∀ i, ∃ r : ℝ, X i = (r : EReal)) ∧ (∀ i, ∃ r : ℝ, W i = (r : EReal)) ∧ (∀ i, ∃ r : ℝ, B i = (r : EReal))
      ∧ (∀ i, 0 ≤ (L i).toInt ∧ (L i).toInt < 500) := by
  -- the result is a scalar: it has one index
  haveI : Subsingleton S_.Idx := ⟨fun a b => funext fun d => d.elim0⟩
  -- the predicate at its one index: ((((allX ∧ allW) ∧ allB) ∧ allL≥0) ∧ allL<500) = 1
  have h0 := congrFun h ValueIdx.ix0
  dsimp only [fn, fn_part1] at h0
  dsimp only [andi] at h0
  obtain ⟨h1, hL5⟩ := IntOp.andi_eq_one.1 h0
  obtain ⟨h2, hL0⟩ := IntOp.andi_eq_one.1 h1
  obtain ⟨h3, hB⟩ := IntOp.andi_eq_one.1 h2
  obtain ⟨hX, hW⟩ := IntOp.andi_eq_one.1 h3
  refine ⟨fun i => ?_, fun i => ?_, fun i => ?_, fun i => ⟨?_, ?_⟩⟩
  -- each "and" over an array is 1, so the test holds at index i; there the test reads |x| < +∞ by unfolding
  · exact real_of_abs_lt (X i) (Host.reduce_andi_all _ _ _ _ _ hX i)
  · exact real_of_abs_lt (W i) (Host.reduce_andi_all _ _ _ _ _ hW i)
  · exact real_of_abs_lt (B i) (Host.reduce_andi_all _ _ _ _ _ hB i)
  -- the signed comparisons of the label word with the broadcast constants 0 and 500
  · have e : IntOp.cmpi .sge (L i) 0#32 = 1#1 := Host.reduce_andi_all _ _ _ _ _ hL0 i
    have := IntOp.cmpi_sge.1 e
    simpa using this
  · have e : IntOp.cmpi .slt (L i) 500#32 = 1#1 := Host.reduce_andi_all _ _ _ _ _ hL5 i
    have := IntOp.cmpi_slt.1 e
    have c : (500#32 : BitVec 32).toInt = 500 := by decide
    rw [c] at this
    exact this

end Cert.Pre_finite_inputs.RuleAggPre

end
-- ==== Proof.lean ====
/-
  Label-aggregated message passing, kernel against reference, over the extended reals.

  Both programs compute, for output row o and feature f,
      out o f = (1/500000) · ∑ v, W o (label v) · X v f + B o f
  over 500000 nodes with labels in [0, 500).  The reference looks each node's weight up, divides it by 500000 and
  contracts over the nodes.  The kernel streams the nodes in 123 tiles of 4096 rows (the node axis padded with zero
  rows and an out-of-range label), adds  onehot(labels)ᵀ · X_tile  into a 500 x 16 table carried across the grid, and
  after the last tile returns  (W · table) · (1/500000) + B;  its literal 1/500000 is the named constant.

  The precondition says every float entry is a real number and every label lies in [0, 500): on such inputs the
  reference's negative-index wrap and index clamp are the identity, a padded row contributes nothing, and exchanging
  the two finite sums (distributivity, which needs real entries) turns the kernel's form into the reference's.

  The frames of the two kernel programs are the generated ones; the reference's frame is its generated run.  The
  kernel's value is read off the generated frame run: each control case's stored values (Pieces), the table by
  induction over the grid points (Accum), the single write-back covering the result array (KernelValue).  The
  reference's value is its generated run read one operation at a time, the lookup by hand (RefValue).  The two closed
  forms and their equality are in Spec; the precondition is opened in PreFacts.
-/
import proofs.«429767_j44006234915594_1_alg».proof.Defs
import proofs.«429767_j44006234915594_1_alg».proof.Proof.Gen.Kernel
import proofs.«429767_j44006234915594_1_alg».proof.Proof.Gen.Kernel.Skeleton
import proofs.«429767_j44006234915594_1_alg».proof.Proof.Gen.Kernel.Launch
import proofs.«429767_j44006234915594_1_alg».proof.Proof.Gen.Kernel.Points
import proofs.«429767_j44006234915594_1_alg».proof.Proof.Gen.Kernel.Frame
import proofs.«429767_j44006234915594_1_alg».proof.Proof.Gen.KernelIdeal
import proofs.«429767_j44006234915594_1_alg».proof.Proof.Gen.KernelIdeal.Skeleton
import proofs.«429767_j44006234915594_1_alg».proof.Proof.Gen.KernelIdeal.Launch
import proofs.«429767_j44006234915594_1_alg».proof.Proof.Gen.KernelIdeal.Points
import proofs.«429767_j44006234915594_1_alg».proof.Proof.Gen.KernelIdeal.Frame
import proofs.«429767_j44006234915594_1_alg».proof.Proof.Gen.ReferenceIdeal
import proofs.«429767_j44006234915594_1_alg».proof.Proof.Gen.Pre_finite_inputs
import proofs.«429767_j44006234915594_1_alg».proof.Proof.Gen.KernelIdeal.Value
import proofs.«429767_j44006234915594_1_alg».proof.Proof.Gen.ReferenceIdeal.Run
import proofs.«429767_j44006234915594_1_alg».proof.Proof.Gen.ReferenceIdeal.Read
import proofs.«429767_j44006234915594_1_alg».proof.Proof.KernelValue
import proofs.«429767_j44006234915594_1_alg».proof.Proof.RefValue
import proofs.«429767_j44006234915594_1_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the ideal pass: the kernel's literal f32(1/500000) is read as the rational 1/500000. -/
theorem preserves : Cert.preserves_Kernel_KernelIdeal :=
  IdealRules.named_const.statement Cert.KernelIdeal.κ "inv_500000" .f32 0x360637BD#32 ((1 / 500000 : ℝ) : EReal) rfl

/-- From arguments that agree, the kernel's result array ends at `kernelOut` and the reference's at `refOut` of the
    same features, weights, bias and labels; under the precondition these are equal. -/
theorem algebraic : Cert.algebraic_KernelIdeal_ReferenceIdeal := by
  intro m ρ m' ρ' hpre hagree
  refine ⟨fun c => Cert.KernelIdeal.RuleAggK.result m c, Cert.KernelIdeal.RuleAggK.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v11_eq]
  obtain ⟨hX, hW, hB, hL⟩ := Cert.Pre_finite_inputs.RuleAggPre.pre_facts _ _ _ _ (hpre c)
  funext i
  obtain ⟨a, o, f, rfl⟩ : ∃ (a : Fin 1) (o : Fin 64) (f : Fin 16), i = ix3 a o f := ⟨i 0, i 1, i 2, eq_ix3 i⟩
  obtain rfl : a = 0 := Subsingleton.elim _ _
  rw [Cert.ReferenceIdeal.RuleAggRef.ref_apply _ _ _ _ hL o f]
  exact (RuleAgg.kernelOut_eq_refOut _ _ _ _ (fun v f => hX _) (fun o l => hW _) (fun o f => hB _) (fun v => hL _) o f).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
